-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1000000 : Shape := ⟨2, ![2, 1000000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S64x1 .f32) (main_arg9 : FVec F S1 .f32) (main_v33 : IVec S_ 1) : IVec S_ 1 :=
  let main_v34 : FVec F S64x1 .f32 := Host.absf main_arg8
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S64 .f32) (main_arg6 : FVec F S128x64 .f32) (main_arg7 : FVec F S64 .f32) (main_arg8 : FVec F S64x1 .f32) (main_arg9 : FVec F S1 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S100000x256 .f32) (main_arg1 : IVec S2x1000000 32) (main_arg2 : FVec F S256x128 .f32) (main_arg3 : FVec F S128 .f32) (main_arg4 : FVec F S128x64 .f32) (main_arg5 : FVec F S64 .f32) (main_arg6 : FVec F S128x64 .f32) (main_arg7 : FVec F S64 .f32) (main_arg8 : FVec F S64x1 .f32) (main_arg9 : FVec F S1 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_arg8 main_arg9 main_v13 main_v16
-- ==== Kernel.lean ====
abbrev S100000x256 : Shape := ⟨2, ![100000, 256]⟩
abbrev S2x1000000 : Shape := ⟨2, ![2, 1000000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x1000000 : Shape := ⟨2, ![1, 1000000]⟩
abbrev S1000000 : Shape := ⟨1, ![1000000]⟩
abbrev S100000 : Shape := ⟨1, ![100000]⟩
abbrev S1100000 : Shape := ⟨1, ![1100000]⟩
abbrev S_ : Shape := ⟨0, ![]⟩
abbrev S1100000x1 : Shape := ⟨2, ![1100000, 1]⟩
abbrev S100000x128 : Shape := ⟨2, ![100000, 128]⟩
abbrev S5000x256 : Shape := ⟨2, ![5000, 256]⟩
abbrev S5000x128 : Shape := ⟨2, ![5000, 128]⟩
abbrev S1100000x128 : Shape := ⟨2, ![1100000, 128]⟩
abbrev S1x128 : Shape := ⟨2, ![1, 128]⟩
abbrev S100000x64 : Shape := ⟨2, ![100000, 64]⟩
abbrev S5000x64 : Shape := ⟨2, ![5000, 64]⟩
abbrev S1100000x64 : Shape := ⟨2, ![1100000, 64]⟩
abbrev S1x64 : Shape := ⟨2, ![1, 64]⟩
abbrev S1000000x1 : Shape := ⟨2, ![1000000, 1]⟩
abbrev S1000000x64 : Shape := ⟨2, ![1000000, 64]⟩
abbrev S1000000x128 : Shape := ⟨2, ![1000000, 128]⟩
abbrev S1x1 : Shape := ⟨2, ![1, 1]⟩
abbrev S10000x128 : Shape := ⟨2, ![10000, 128]⟩
abbrev S10000x1 : Shape := ⟨2, ![10000, 1]⟩
abbrev S10000x64 : Shape := ⟨2, ![10000, 64]⟩

abbrev nBuf : Space → Nat
  | .hbm => 111
  | .vmem => 19
  | .smem => 0
  | _ => 0

abbrev bufTy : (tb : Table) → Fin (tcTables nBuf tb) → BufTy
  | .hbm, ⟨0, _⟩ => ⟨S100000x256, .f32⟩
  | .hbm, ⟨1, _⟩ => ⟨S2x1000000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S64x1, .f32⟩
  | .hbm, ⟨9, _⟩ => ⟨S1, .f32⟩
  | .hbm, ⟨10, _⟩ => ⟨S1x1000000, .i32⟩
  | .hbm, ⟨11, _⟩ => ⟨S1000000, .i32⟩
  | .hbm, ⟨12, _⟩ => ⟨S1x1000000, .i32⟩
  | .hbm, ⟨13, _⟩ => ⟨S1000000, .i32⟩
  | .hbm, ⟨14, _⟩ => ⟨S100000, .i32⟩
  | .hbm, ⟨15, _⟩ => ⟨S1100000, .i32⟩
  | .hbm, ⟨16, _⟩ => ⟨S1100000, .i32⟩
  | .hbm, ⟨17, _⟩ => ⟨S_, .f32⟩
  | .hbm, ⟨18, _⟩ => ⟨S1100000, .f32⟩
  | .hbm, ⟨19, _⟩ => ⟨S_, .f32⟩
  | .hbm, ⟨20, _⟩ => ⟨S100000, .f32⟩
  | .hbm, ⟨21, _⟩ => ⟨S1100000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1100000, .i32⟩
  | .hbm, ⟨29, _⟩ => ⟨S1100000, .i1⟩
  | .hbm, ⟨30, _⟩ => ⟨S_, .i32⟩
  | .hbm, ⟨31, _⟩ => ⟨S1100000, .i32⟩
  | .hbm, ⟨32, _⟩ => ⟨S1100000, .i32⟩
  | .hbm, ⟨33, _⟩ => ⟨S1100000, .i32⟩
  | .hbm, ⟨34, _⟩ => ⟨S1100000x1, .i32⟩
  | .hbm, ⟨35, _⟩ => ⟨S1100000, .f32⟩
  | .hbm, ⟨36, _⟩ => ⟨S_, .i32⟩
  | .hbm, ⟨37, _⟩ => ⟨S1100000, .i32⟩
  | .hbm, ⟨38, _⟩ => ⟨S1100000, .i1⟩
  | .hbm, ⟨39, _⟩ => ⟨S_, .i32⟩
  | .hbm, ⟨40, _⟩ => ⟨S1100000, .i32⟩
  | .hbm, ⟨41, _⟩ => ⟨S1100000, .i32⟩
  | .hbm, ⟨42, _⟩ => ⟨S1100000, .i32⟩
  | .hbm, ⟨43, _⟩ => ⟨S1100000x1, .i32⟩
  | .hbm, ⟨44, _⟩ => ⟨S1100000, .f32⟩
  | .hbm, ⟨45, _⟩ => ⟨S1100000, .f32⟩
  | .hbm, ⟨46, _⟩ => ⟨S100000x128, .f32⟩
  | .hbm, ⟨47, _⟩ => ⟨S1100000x1, .f32⟩
  | .hbm, ⟨48, _⟩ => ⟨S_, .i32⟩
  | .hbm, ⟨49, _⟩ => ⟨S1100000, .i32⟩
  | .hbm, ⟨50, _⟩ => ⟨S1100000, .i1⟩
  | .hbm, ⟨51, _⟩ => ⟨S_, .i32⟩
  | .hbm, ⟨52, _⟩ => ⟨S1100000, .i32⟩
  | .hbm, ⟨53, _⟩ => ⟨S1100000, .i32⟩
  | .hbm, ⟨54, _⟩ => ⟨S1100000, .i32⟩
  | .hbm, ⟨55, _⟩ => ⟨S1100000x1, .i32⟩
  | .hbm, ⟨56, _⟩ => ⟨S1100000x128, .f32⟩
  | .hbm, ⟨57, _⟩ => ⟨S1100000x128, .f32⟩
  | .hbm, ⟨58, _⟩ => ⟨S1100000x128, .f32⟩
  | .hbm, ⟨59, _⟩ => ⟨S_, .f32⟩
  | .hbm, ⟨60, _⟩ => ⟨S100000x128, .f32⟩
  | .hbm, ⟨61, _⟩ => ⟨S1100000x1, .i32⟩
  | .hbm, ⟨62, _⟩ => ⟨S100000x128, .f32⟩
  | .hbm, ⟨63, _⟩ => ⟨S1x128, .f32⟩
  | .hbm, ⟨64, _⟩ => ⟨S100000x64, .f32⟩
  | .hbm, ⟨65, _⟩ => ⟨S1100000x1, .f32⟩
  | .hbm, ⟨66, _⟩ => ⟨S_, .i32⟩
  | .hbm, ⟨67, _⟩ => ⟨S1100000, .i32⟩
  | .hbm, ⟨68, _⟩ => ⟨S1100000, .i1⟩
  | .hbm, ⟨69, _⟩ => ⟨S_, .i32⟩
  | .hbm, ⟨70, _⟩ => ⟨S1100000, .i32⟩
  | .hbm, ⟨71, _⟩ => ⟨S1100000, .i32⟩
  | .hbm, ⟨72, _⟩ => ⟨S1100000, .i32⟩
  | .hbm, ⟨73, _⟩ => ⟨S1100000x1, .i32⟩
  | .hbm, ⟨74, _⟩ => ⟨S1100000x64, .f32⟩
  | .hbm, ⟨75, _⟩ => ⟨S1100000x64, .f32⟩
  | .hbm, ⟨76, _⟩ => ⟨S1100000x64, .f32⟩
  | .hbm, ⟨77, _⟩ => ⟨S_, .f32⟩
  | .hbm, ⟨78, _⟩ => ⟨S100000x64, .f32⟩
  | .hbm, ⟨79, _⟩ => ⟨S1100000x1, .i32⟩
  | .hbm, ⟨80, _⟩ => ⟨S100000x64, .f32⟩
  | .hbm, ⟨81, _⟩ => ⟨S1x64, .f32⟩
  | .hbm, ⟨82, _⟩ => ⟨S100000x64, .f32⟩
  | .hbm, ⟨83, _⟩ => ⟨S100000x64, .f32⟩
  | .hbm, ⟨84, _⟩ => ⟨S1x1000000, .i32⟩
  | .hbm, ⟨85, _⟩ => ⟨S1000000, .i32⟩
  | .hbm, ⟨86, _⟩ => ⟨S_, .i32⟩
  | .hbm, ⟨87, _⟩ => ⟨S1000000, .i32⟩
  | .hbm, ⟨88, _⟩ => ⟨S1000000, .i1⟩
  | .hbm, ⟨89, _⟩ => ⟨S_, .i32⟩
  | .hbm, ⟨90, _⟩ => ⟨S1000000, .i32⟩
  | .hbm, ⟨91, _⟩ => ⟨S1000000, .i32⟩
  | .hbm, ⟨92, _⟩ => ⟨S1000000, .i32⟩
  | .hbm, ⟨93, _⟩ => ⟨S1000000x1, .i32⟩
  | .hbm, ⟨94, _⟩ => ⟨S1000000x64, .f32⟩
  | .hbm, ⟨95, _⟩ => ⟨S1x1000000, .i32⟩
  | .hbm, ⟨96, _⟩ => ⟨S1000000, .i32⟩
  | .hbm, ⟨97, _⟩ => ⟨S_, .i32⟩
  | .hbm, ⟨98, _⟩ => ⟨S1000000, .i32⟩
  | .hbm, ⟨99, _⟩ => ⟨S1000000, .i1⟩
  | .hbm, ⟨100, _⟩ => ⟨S_, .i32⟩
  | .hbm, ⟨101, _⟩ => ⟨S1000000, .i32⟩
  | .hbm, ⟨102, _⟩ => ⟨S1000000, .i32⟩
  | .hbm, ⟨103, _⟩ => ⟨S1000000, .i32⟩
  | .hbm, ⟨104, _⟩ => ⟨S1000000x1, .i32⟩
  | .hbm, ⟨105, _⟩ => ⟨S1000000x64, .f32⟩
  | .hbm, ⟨106, _⟩ => ⟨S1000000x128, .f32⟩
  | .hbm, ⟨107, _⟩ => ⟨S1x64, .f32⟩
  | .hbm, ⟨108, _⟩ => ⟨S1x1, .f32⟩
  | .hbm, ⟨109, _⟩ => ⟨S1000000x1, .f32⟩
  | .hbm, ⟨110, _⟩ => ⟨S1000000, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x64, .f32⟩
  | .local _ .vmem, ⟨9, _⟩ => ⟨S5000x64, .f32⟩
  | .local _ .vmem, ⟨10, _⟩ => ⟨S5000x64, .f32⟩
  | .local _ .vmem, ⟨11, _⟩ => ⟨S10000x128, .f32⟩
  | .local _ .vmem, ⟨12, _⟩ => ⟨S10000x128, .f32⟩
  | .local _ .vmem, ⟨13, _⟩ => ⟨S128x64, .f32⟩
  | .local _ .vmem, ⟨14, _⟩ => ⟨S1x64, .f32⟩
  | .local _ .vmem, ⟨15, _⟩ => ⟨S64x1, .f32⟩
  | .local _ .vmem, ⟨16, _⟩ => ⟨S1x1, .f32⟩
  | .local _ .vmem, ⟨17, _⟩ => ⟨S10000x1, .f32⟩
  | .local _ .vmem, ⟨18, _⟩ => ⟨S10000x1, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_5 : Ref sig .tc := ⟨.hbm, 48, rfl⟩
abbrev main_v31 : Ref sig .tc := ⟨.hbm, 49, rfl⟩
abbrev main_v32 : Ref sig .tc := ⟨.hbm, 50, rfl⟩
abbrev main_c_6 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_c_8 : Ref sig .tc := ⟨.hbm, 66, rfl⟩
abbrev main_v46 : Ref sig .tc := ⟨.hbm, 67, rfl⟩
abbrev main_v47 : Ref sig .tc := ⟨.hbm, 68, rfl⟩
abbrev main_c_9 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_10 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_c_11 : Ref sig .tc := ⟨.hbm, 86, rfl⟩
abbrev main_v63 : Ref sig .tc := ⟨.hbm, 87, rfl⟩
abbrev main_v64 : Ref sig .tc := ⟨.hbm, 88, rfl⟩
abbrev main_c_12 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_13 : Ref sig .tc := ⟨.hbm, 97, rfl⟩
abbrev main_v72 : Ref sig .tc := ⟨.hbm, 98, rfl⟩
abbrev main_v73 : Ref sig .tc := ⟨.hbm, 99, rfl⟩
abbrev main_c_14 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg5_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem5_1 : DmaSem sig := 18

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  concatenates_S1000000_S100000_S1100000_d0 : Shape.Concatenates [S1000000, S100000] S1100000 0
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S1100000x1_S1100000x128_0_1 : S1100000x1.BroadcastsInDim S1100000x128 (![0, 1] : Fin 2 → Fin S1100000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x64_S1000000x64_S1000000x128_d1 : Shape.Concatenates [S1000000x64, S1000000x64] S1000000x128 1
  shapeCasts_S64_S1x64 : S64.ShapeCasts S1x64
  shapeCasts_S1_S1x1 : S1.ShapeCasts S1x1
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  shapeCasts_S1000000x1_S1000000 : S1000000x1.ShapeCasts S1000000
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  dot_S5000x256_S256x128_S5000x128_1_0_0_1_n_n_wf : DotDims.WF S5000x256 S256x128 S5000x128 [1] [0] [0] [1] [] []
  gather_S100000x128_S1100000x1_S1100000x128_1_0_n_n_0_1_1128_wf : GatherDims.WF S100000x128 S1100000x1 S1100000x128 [1] [0] [] [0] [] 1 ![1, 128]
  scatter_S100000x128_S1100000x1_S1100000x128_1_0_0_1_wf : ScatterDims.WF S100000x128 S1100000x1 S1100000x128 [1] [0] [0] 1
  dot_S5000x128_S128x64_S5000x64_1_0_0_1_n_n_wf : DotDims.WF S5000x128 S128x64 S5000x64 [1] [0] [0] [1] [] []
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  gather_S100000x64_S1000000x1_S1000000x64_1_0_n_n_0_1_164_wf : GatherDims.WF S100000x64 S1000000x1 S1000000x64 [1] [0] [] [0] [] 1 ![1, 64]
  dot_S10000x128_S128x64_S10000x64_1_0_0_1_n_n_wf : DotDims.WF S10000x128 S128x64 S10000x64 [1] [0] [0] [1] [] []
  dot_S10000x64_S64x1_S10000x1_1_0_0_1_n_n_wf : DotDims.WF S10000x64 S64x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S1000000x128.size a
  hwx2_0 : ∀ i : grid2.Coords, EltTy.bits .f32 = 32 ∨ (Rect.block (s := S1000000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x1.size a ≤ S64x1.size a
  hwx2_3 : ∀ i : grid2.Coords, EltTy.bits .f32 = 32 ∨ (Rect.block (s := S64x1) S64x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x1.size a ≤ S1000000x1.size a
  hwx2_5 : ∀ i : grid2.Coords, EltTy.bits .f32 = 32 ∨ (Rect.block (s := S1000000x1) S10000x1.size (cc2_transform_5 i) (hinb2_5 i)).WholeWords (EltTy.packing .f32)

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1100000x1_S1100000x128_1_0_n_n_0_1_1128 : GatherDims S100000x128 S1100000x1 S1100000x128 where
  offsetDims := [1]
  collapsedSliceDims := [0]
  operandBatchingDims := []
  startIndicesBatchingDims := []
  startIndexMap := [0]
  indexVectorDim := 1
  sliceSizes := ![1, 128]
  wf := gather_S100000x128_S1100000x1_S1100000x128_1_0_n_n_0_1_1128_wf
def scatter_S100000x128_S1100000x1_S1100000x128_1_0_0_1 : ScatterDims S100000x128 S1100000x1 S1100000x128 where
  updateWindowDims := [1]
  insertedWindowDims := [0]
  scatterDimsToOperandDims := [0]
  indexVectorDim := 1
  wf := scatter_S100000x128_S1100000x1_S1100000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v79) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v80) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S64x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v81) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v82) S10000x1.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x256 : Shape := ⟨2, ![100000, 256]⟩
abbrev S2x1000000 : Shape := ⟨2, ![2, 1000000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x1000000 : Shape := ⟨2, ![1, 1000000]⟩
abbrev S1000000 : Shape := ⟨1, ![1000000]⟩
abbrev S100000 : Shape := ⟨1, ![100000]⟩
abbrev S1100000 : Shape := ⟨1, ![1100000]⟩
abbrev S_ : Shape := ⟨0, ![]⟩
abbrev S1100000x1 : Shape := ⟨2, ![1100000, 1]⟩
abbrev S100000x128 : Shape := ⟨2, ![100000, 128]⟩
abbrev S1100000x128 : Shape := ⟨2, ![1100000, 128]⟩
abbrev S1x128 : Shape := ⟨2, ![1, 128]⟩
abbrev S100000x64 : Shape := ⟨2, ![100000, 64]⟩
abbrev S1100000x64 : Shape := ⟨2, ![1100000, 64]⟩
abbrev S1x64 : Shape := ⟨2, ![1, 64]⟩
abbrev S1000000x1 : Shape := ⟨2, ![1000000, 1]⟩
abbrev S1000000x64 : Shape := ⟨2, ![1000000, 64]⟩
abbrev S1000000x128 : Shape := ⟨2, ![1000000, 128]⟩
abbrev S1x1 : Shape := ⟨2, ![1, 1]⟩

abbrev nBuf : Space → Nat
  | .hbm => 124
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1000000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S64x1, .f32⟩
  | .hbm, ⟨9, _⟩ => ⟨S1, .f32⟩
  | .hbm, ⟨10, _⟩ => ⟨S1x1000000, .i32⟩
  | .hbm, ⟨11, _⟩ => ⟨S1000000, .i32⟩
  | .hbm, ⟨12, _⟩ => ⟨S1x1000000, .i32⟩
  | .hbm, ⟨13, _⟩ => ⟨S1000000, .i32⟩
  | .hbm, ⟨14, _⟩ => ⟨S100000, .i32⟩
  | .hbm, ⟨15, _⟩ => ⟨S1100000, .i32⟩
  | .hbm, ⟨16, _⟩ => ⟨S1100000, .i32⟩
  | .hbm, ⟨17, _⟩ => ⟨S_, .f32⟩
  | .hbm, ⟨18, _⟩ => ⟨S1100000, .f32⟩
  | .hbm, ⟨19, _⟩ => ⟨S_, .f32⟩
  | .hbm, ⟨20, _⟩ => ⟨S100000, .f32⟩
  | .hbm, ⟨21, _⟩ => ⟨S1100000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1100000, .i32⟩
  | .hbm, ⟨29, _⟩ => ⟨S1100000, .i1⟩
  | .hbm, ⟨30, _⟩ => ⟨S_, .i32⟩
  | .hbm, ⟨31, _⟩ => ⟨S1100000, .i32⟩
  | .hbm, ⟨32, _⟩ => ⟨S1100000, .i32⟩
  | .hbm, ⟨33, _⟩ => ⟨S1100000, .i32⟩
  | .hbm, ⟨34, _⟩ => ⟨S1100000x1, .i32⟩
  | .hbm, ⟨35, _⟩ => ⟨S1100000, .f32⟩
  | .hbm, ⟨36, _⟩ => ⟨S_, .i32⟩
  | .hbm, ⟨37, _⟩ => ⟨S1100000, .i32⟩
  | .hbm, ⟨38, _⟩ => ⟨S1100000, .i1⟩
  | .hbm, ⟨39, _⟩ => ⟨S_, .i32⟩
  | .hbm, ⟨40, _⟩ => ⟨S1100000, .i32⟩
  | .hbm, ⟨41, _⟩ => ⟨S1100000, .i32⟩
  | .hbm, ⟨42, _⟩ => ⟨S1100000, .i32⟩
  | .hbm, ⟨43, _⟩ => ⟨S1100000x1, .i32⟩
  | .hbm, ⟨44, _⟩ => ⟨S1100000, .f32⟩
  | .hbm, ⟨45, _⟩ => ⟨S1100000, .f32⟩
  | .hbm, ⟨46, _⟩ => ⟨S100000x128, .f32⟩
  | .hbm, ⟨47, _⟩ => ⟨S1100000x1, .f32⟩
  | .hbm, ⟨48, _⟩ => ⟨S_, .i32⟩
  | .hbm, ⟨49, _⟩ => ⟨S1100000, .i32⟩
  | .hbm, ⟨50, _⟩ => ⟨S1100000, .i1⟩
  | .hbm, ⟨51, _⟩ => ⟨S_, .i32⟩
  | .hbm, ⟨52, _⟩ => ⟨S1100000, .i32⟩
  | .hbm, ⟨53, _⟩ => ⟨S1100000, .i32⟩
  | .hbm, ⟨54, _⟩ => ⟨S1100000, .i32⟩
  | .hbm, ⟨55, _⟩ => ⟨S1100000x1, .i32⟩
  | .hbm, ⟨56, _⟩ => ⟨S1100000x128, .f32⟩
  | .hbm, ⟨57, _⟩ => ⟨S1100000x128, .f32⟩
  | .hbm, ⟨58, _⟩ => ⟨S1100000x128, .f32⟩
  | .hbm, ⟨59, _⟩ => ⟨S_, .f32⟩
  | .hbm, ⟨60, _⟩ => ⟨S100000x128, .f32⟩
  | .hbm, ⟨61, _⟩ => ⟨S1100000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x64, .f32⟩
  | .hbm, ⟨70, _⟩ => ⟨S1100000x1, .f32⟩
  | .hbm, ⟨71, _⟩ => ⟨S_, .i32⟩
  | .hbm, ⟨72, _⟩ => ⟨S1100000, .i32⟩
  | .hbm, ⟨73, _⟩ => ⟨S1100000, .i1⟩
  | .hbm, ⟨74, _⟩ => ⟨S_, .i32⟩
  | .hbm, ⟨75, _⟩ => ⟨S1100000, .i32⟩
  | .hbm, ⟨76, _⟩ => ⟨S1100000, .i32⟩
  | .hbm, ⟨77, _⟩ => ⟨S1100000, .i32⟩
  | .hbm, ⟨78, _⟩ => ⟨S1100000x1, .i32⟩
  | .hbm, ⟨79, _⟩ => ⟨S1100000x64, .f32⟩
  | .hbm, ⟨80, _⟩ => ⟨S1100000x64, .f32⟩
  | .hbm, ⟨81, _⟩ => ⟨S1100000x64, .f32⟩
  | .hbm, ⟨82, _⟩ => ⟨S_, .f32⟩
  | .hbm, ⟨83, _⟩ => ⟨S100000x64, .f32⟩
  | .hbm, ⟨84, _⟩ => ⟨S1100000x1, .i32⟩
  | .hbm, ⟨85, _⟩ => ⟨S100000x64, .f32⟩
  | .hbm, ⟨86, _⟩ => ⟨S1x64, .f32⟩
  | .hbm, ⟨87, _⟩ => ⟨S100000x64, .f32⟩
  | .hbm, ⟨88, _⟩ => ⟨S100000x64, .f32⟩
  | .hbm, ⟨89, _⟩ => ⟨S1x1000000, .i32⟩
  | .hbm, ⟨90, _⟩ => ⟨S1000000, .i32⟩
  | .hbm, ⟨91, _⟩ => ⟨S_, .i32⟩
  | .hbm, ⟨92, _⟩ => ⟨S1000000, .i32⟩
  | .hbm, ⟨93, _⟩ => ⟨S1000000, .i1⟩
  | .hbm, ⟨94, _⟩ => ⟨S_, .i32⟩
  | .hbm, ⟨95, _⟩ => ⟨S1000000, .i32⟩
  | .hbm, ⟨96, _⟩ => ⟨S1000000, .i32⟩
  | .hbm, ⟨97, _⟩ => ⟨S1000000, .i32⟩
  | .hbm, ⟨98, _⟩ => ⟨S1000000x1, .i32⟩
  | .hbm, ⟨99, _⟩ => ⟨S1000000x64, .f32⟩
  | .hbm, ⟨100, _⟩ => ⟨S1x1000000, .i32⟩
  | .hbm, ⟨101, _⟩ => ⟨S1000000, .i32⟩
  | .hbm, ⟨102, _⟩ => ⟨S_, .i32⟩
  | .hbm, ⟨103, _⟩ => ⟨S1000000, .i32⟩
  | .hbm, ⟨104, _⟩ => ⟨S1000000, .i1⟩
  | .hbm, ⟨105, _⟩ => ⟨S_, .i32⟩
  | .hbm, ⟨106, _⟩ => ⟨S1000000, .i32⟩
  | .hbm, ⟨107, _⟩ => ⟨S1000000, .i32⟩
  | .hbm, ⟨108, _⟩ => ⟨S1000000, .i32⟩
  | .hbm, ⟨109, _⟩ => ⟨S1000000x1, .i32⟩
  | .hbm, ⟨110, _⟩ => ⟨S1000000x64, .f32⟩
  | .hbm, ⟨111, _⟩ => ⟨S1000000x128, .f32⟩
  | .hbm, ⟨112, _⟩ => ⟨S1000000x64, .f32⟩
  | .hbm, ⟨113, _⟩ => ⟨S1x64, .f32⟩
  | .hbm, ⟨114, _⟩ => ⟨S1000000x64, .f32⟩
  | .hbm, ⟨115, _⟩ => ⟨S1000000x64, .f32⟩
  | .hbm, ⟨116, _⟩ => ⟨S_, .f32⟩
  | .hbm, ⟨117, _⟩ => ⟨S1000000x64, .f32⟩
  | .hbm, ⟨118, _⟩ => ⟨S1000000x64, .f32⟩
  | .hbm, ⟨119, _⟩ => ⟨S1000000x1, .f32⟩
  | .hbm, ⟨120, _⟩ => ⟨S1x1, .f32⟩
  | .hbm, ⟨121, _⟩ => ⟨S1000000x1, .f32⟩
  | .hbm, ⟨122, _⟩ => ⟨S1000000x1, .f32⟩
  | .hbm, ⟨123, _⟩ => ⟨S1000000, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_5 : Ref sig .tc := ⟨.hbm, 48, rfl⟩
abbrev main_v31 : Ref sig .tc := ⟨.hbm, 49, rfl⟩
abbrev main_v32 : Ref sig .tc := ⟨.hbm, 50, rfl⟩
abbrev main_c_6 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_call0_cst : Ref sig .tc := ⟨.hbm, 66, rfl⟩
abbrev main_call0_v0 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_8 : Ref sig .tc := ⟨.hbm, 71, rfl⟩
abbrev main_v49 : Ref sig .tc := ⟨.hbm, 72, rfl⟩
abbrev main_v50 : Ref sig .tc := ⟨.hbm, 73, rfl⟩
abbrev main_c_9 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_10 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_c_11 : Ref sig .tc := ⟨.hbm, 91, rfl⟩
abbrev main_v66 : Ref sig .tc := ⟨.hbm, 92, rfl⟩
abbrev main_v67 : Ref sig .tc := ⟨.hbm, 93, rfl⟩
abbrev main_c_12 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_c_13 : Ref sig .tc := ⟨.hbm, 102, rfl⟩
abbrev main_v75 : Ref sig .tc := ⟨.hbm, 103, rfl⟩
abbrev main_v76 : Ref sig .tc := ⟨.hbm, 104, rfl⟩
abbrev main_c_14 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_call1_cst : Ref sig .tc := ⟨.hbm, 116, rfl⟩
abbrev main_call1_v0 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  concatenates_S1000000_S100000_S1100000_d0 : Shape.Concatenates [S1000000, S100000] S1100000 0
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  bcast_S1100000x1_S1100000x128_0_1 : S1100000x1.BroadcastsInDim S1100000x128 (![0, 1] : Fin 2 → Fin S1100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x64_S1000000x64_S1000000x128_d1 : Shape.Concatenates [S1000000x64, S1000000x64] S1000000x128 1
  bcast_S1x64_S1000000x64_0_1 : S1x64.BroadcastsInDim S1000000x64 (![0, 1] : Fin 2 → Fin S1000000x64.rank)
  bcast_S_S1000000x64 : S_.BroadcastsInDim S1000000x64 (![] : Fin 0 → Fin S1000000x64.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  shapeCasts_S1000000x1_S1000000 : S1000000x1.ShapeCasts S1000000
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  dot_S100000x256_S256x128_S100000x128_1_0_0_1_n_n_wf : DotDims.WF S100000x256 S256x128 S100000x128 [1] [0] [0] [1] [] []
  gather_S100000x128_S1100000x1_S1100000x128_1_0_n_n_0_1_1128_wf : GatherDims.WF S100000x128 S1100000x1 S1100000x128 [1] [0] [] [0] [] 1 ![1, 128]
  scatter_S100000x128_S1100000x1_S1100000x128_1_0_0_1_wf : ScatterDims.WF S100000x128 S1100000x1 S1100000x128 [1] [0] [0] 1
  dot_S100000x128_S128x64_S100000x64_1_0_0_1_n_n_wf : DotDims.WF S100000x128 S128x64 S100000x64 [1] [0] [0] [1] [] []
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  gather_S100000x64_S1000000x1_S1000000x64_1_0_n_n_0_1_164_wf : GatherDims.WF S100000x64 S1000000x1 S1000000x64 [1] [0] [] [0] [] 1 ![1, 64]
  dot_S1000000x128_S128x64_S1000000x64_1_0_0_1_n_n_wf : DotDims.WF S1000000x128 S128x64 S1000000x64 [1] [0] [0] [1] [] []
  dot_S1000000x64_S64x1_S1000000x1_1_0_0_1_n_n_wf : DotDims.WF S1000000x64 S64x1 S1000000x1 [1] [0] [0] [1] [] []

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1100000x1_S1100000x128_1_0_n_n_0_1_1128 : GatherDims S100000x128 S1100000x1 S1100000x128 where
  offsetDims := [1]
  collapsedSliceDims := [0]
  operandBatchingDims := []
  startIndicesBatchingDims := []
  startIndexMap := [0]
  indexVectorDim := 1
  sliceSizes := ![1, 128]
  wf := gather_S100000x128_S1100000x1_S1100000x128_1_0_n_n_0_1_1128_wf
def scatter_S100000x128_S1100000x1_S1100000x128_1_0_0_1 : ScatterDims S100000x128 S1100000x1 S1100000x128 where
  updateWindowDims := [1]
  insertedWindowDims := [0]
  scatterDimsToOperandDims := [0]
  indexVectorDim := 1
  wf := scatter_S100000x128_S1100000x1_S1100000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S1000000x128_S128x64_S1000000x64_1_0_0_1_n_n : DotDims S1000000x128 S128x64 S1000000x64 where
  lhsContracting := [1]
  rhsContracting := [0]
  lhsNonContracting := [0]
  rhsNonContracting := [1]
  lhsBatch := []
  rhsBatch := []
  wf := dot_S1000000x128_S128x64_S1000000x64_1_0_0_1_n_n_wf
def dot_S1000000x64_S64x1_S1000000x1_1_0_0_1_n_n : DotDims S1000000x64 S64x1 S1000000x1 where
  lhsContracting := [1]
  rhsContracting := [0]
  lhsNonContracting := [0]
  rhsNonContracting := [1]
  lhsBatch := []
  rhsBatch := []
  wf := dot_S1000000x64_S64x1_S1000000x1_1_0_0_1_n_n_wf

class Facts : Prop extends Facts₀ where

variable [Facts]
-- ==== Proof.LibDense.lean ====
/-
  Dense layers over the extended reals, index by index.

  A matrix is a function of a rank-2 index into the extended reals. `mm A B` is the textbook product: entry (a, b) is
  the sum over the shared coordinate c of A (a, c) · B (c, b). `biasRelu z A β` adds the entry β c to every row of A at
  column c and takes the larger of the result and z (the rectifier when z is zero). `plusScalar X s` adds one number to
  every entry. `rowBlock R t A` is the block of R consecutive rows of A that starts at row t · R, all columns kept.

  Facts proved here:
  * the kernel's matrix product into a zero accumulator and the host's plain dot_general are both `mm`, at the exact
    arithmetic of the extended reals (the sum over the contracted coordinate written over its range of numbers);
  * each of the three layers acts row by row, so it commutes with taking a block of rows: a layer of a row block is the
    row block of the layer. That is what lets a product computed block of rows by block of rows be read as ONE product;
  * every row of a matrix of M rows lies in exactly the block t = row / R when R divides the rows evenly.
-/
import Idealize.ShloMosaic.Lib.ValueIdx
import Idealize.ShloMosaic.Lib.Pipeline.Value
import Idealize.ShloMosaic.Lib.KernelVsHost
import Idealize.ShloMosaic.Lib.StackMember
import Idealize.ShloMosaic.PureOps.Ideal.Laws

noncomputable section

namespace Cert.Dense

open Idealize.ShloMosaic Idealize.ShloMosaic.ValueIdx

/-- A matrix of extended reals with `m` rows and `n` columns. -/
abbrev Mat (m n : Nat) := FVec Ideal ⟨2, ![m, n]⟩ .f32

variable {m k n : Nat}

/-- The product of an m×k and a k×n matrix: entry (a, b) is ∑_c A (a, c) · B (c, b). -/
def mm (A : Mat m k) (B : Mat k n) : Mat m n :=
  fun i => ∑ c : Fin k, A (ix2 (i 0 : Fin m) c) * B (ix2 c (i 1 : Fin n))

theorem mm_apply (A : Mat m k) (B : Mat k n) (a : Fin m) (b : Fin n) :
    mm A B (ix2 a b) = ∑ c : Fin k, A (ix2 a c) * B (ix2 c b) := rfl

/-- Row a of A, shifted by β along the columns, then bounded below by z. -/
def biasRelu (z : Ideal .f32) (A : Mat m k) (β : Fin k → Ideal .f32) : Mat m k :=
  fun j => max (A j + β (j 1 : Fin k)) z

/-- One number added to every entry. -/
def plusScalar (X : Mat m n) (s : Ideal .f32) : Mat m n := fun i => X i + s

/-- The host's plain dot_general is the product, entry by entry. -/
theorem dotGeneral_plain_eq_mm {φ₁ φ₂ : FTy} (prec : Option ContractPrecision)
    (A : FVec Ideal ⟨2, ![m, k]⟩ φ₁) (B : FVec Ideal ⟨2, ![k, n]⟩ φ₂) :
    Host.dotGeneral (DotDims.plain m k n) prec A B = mm A B := by
  funext i
  obtain ⟨a, b, rfl⟩ : ∃ (a : Fin m) (b : Fin n), i = ix2 a b := ⟨i 0, i 1, eq_ix2 i⟩
  exact StackMember.dotGeneral_plain_apply prec A B a b

/-- The kernel's plain matrix product accumulated into zeros is the product, entry by entry. -/
theorem matmul_plain_zero_eq_mm {φ₁ φ₂ : FTy} (prec : Option ContractPrecision)
    (A : FVec Ideal ⟨2, ![m, k]⟩ φ₁) (B : FVec Ideal ⟨2, ![k, n]⟩ φ₂) :
    matmul (DotDims.plain m k n) prec A B (constant ⟨2, ![m, n]⟩ .f32 0x00000000#32) = mm A B :=
  (matmul_zero_eq_dotGeneral _ _ _ _).trans (dotGeneral_plain_eq_mm _ _ _)

/-! ## The kernel's spellings of the layers -/

/-- A one-row matrix laid along every row, read at an entry: the row's entry in that column. -/
theorem broadcastTo_oneRow_apply {α : Type} (x : (⟨2, ![1, n]⟩ : Shape).Idx → α)
    (hb : (⟨2, ![1, n]⟩ : Shape).Broadcasts ⟨2, ![m, n]⟩) (j : (⟨2, ![m, n]⟩ : Shape).Idx) :
    broadcastTo ⟨2, ![m, n]⟩ x hb j = x (ix2 (0 : Fin 1) (j 1 : Fin n)) := by
  refine broadcastTo_apply x hb j (ix2 (0 : Fin 1) (j 1 : Fin n)) ?_
  intro a
  match a with
  | ⟨0, _⟩ => rfl
  | ⟨1, _⟩ =>
    show (j 1).val = if n = 1 then 0 else (j 1).val
    split
    · have := (j 1).isLt; have e : (j 1).val < n := this; omega
    · rfl

/-- A vector of `n` entries reshaped to one row, read at an entry: the vector's entry of that column. -/
theorem shapeCast_row_apply {α : Type} (x : (⟨1, ![n]⟩ : Shape).Idx → α)
    (h : (⟨1, ![n]⟩ : Shape).ShapeCasts ⟨2, ![1, n]⟩) (b : Fin n) :
    shapeCast ⟨2, ![1, n]⟩ x h (ix2 (0 : Fin 1) b) = x (ix1 b) :=
  shapeCast_apply x h (ix2 (0 : Fin 1) b) (ix1 b) (by
    rw [Shape.rowMajor_val_one, Shape.rowMajor_val_two]
    show b.val = 0 * n + b.val
    omega)

/-- A block plus a one-row bias laid along its rows, bounded below by the splat of one word, is `biasRelu`. -/
theorem biasRelu_of_broadcast (A : Mat m k) (v : FVec Ideal ⟨2, ![1, k]⟩ .f32)
    (hb : (⟨2, ![1, k]⟩ : Shape).Broadcasts ⟨2, ![m, k]⟩) (z : BitVec 32) :
    maximumf (addf A (broadcastTo ⟨2, ![m, k]⟩ v hb)) (broadcast ⟨2, ![m, k]⟩ (Scalar.ofBits (F := Ideal) .f32 z))
      = biasRelu (Ideal.ofBits .f32 z) A (fun c => v (ix2 (0 : Fin 1) c)) := by
  funext j
  show max (A j + broadcastTo ⟨2, ![m, k]⟩ v hb j) _ = max (A j + v (ix2 (0 : Fin 1) (j 1 : Fin k))) _
  rw [broadcastTo_oneRow_apply]
  rfl

/-- A one-column block plus the splat of a one-entry matrix along its rows is `plusScalar`. -/
theorem plusScalar_of_broadcast (X : Mat m 1) (v : FVec Ideal ⟨2, ![1, 1]⟩ .f32)
    (hb : (⟨2, ![1, 1]⟩ : Shape).Broadcasts ⟨2, ![m, 1]⟩) :
    addf X (broadcastTo ⟨2, ![m, 1]⟩ v hb) = plusScalar X (v (ix2 (0 : Fin 1) (0 : Fin 1))) := by
  funext j
  show X j + broadcastTo ⟨2, ![m, 1]⟩ v hb j = X j + v (ix2 (0 : Fin 1) (0 : Fin 1))
  rw [broadcastTo_oneRow_apply]
  have e : (j 1 : Fin 1) = (0 : Fin 1) :=
    Fin.ext (by have := (j 1).isLt; have e' : (j 1).val < 1 := this; show (j 1).val = 0; omega)
  rw [e]

/-! ## Blocks of rows -/

/-- Rows t·R … t·R + R − 1 of a matrix of M rows (they exist: `h`), every column. -/
def rowBlock {M : Nat} (R t : Nat) (h : t * R + R ≤ M) (A : Mat M k) : Mat R k :=
  fun y => A (ix2 (⟨t * R + (y 0).val, by have := (y 0).isLt; have e : (y 0).val < R := this; omega⟩ : Fin M) (y 1 : Fin k))

variable {M : Nat} (R t : Nat) (h : t * R + R ≤ M)

/-- The product acts row by row: the product of a block of rows is that block of rows of the product. -/
theorem mm_rowBlock (A : Mat M k) (B : Mat k n) : mm (rowBlock R t h A) B = rowBlock R t h (mm A B) := rfl

theorem biasRelu_rowBlock (z : Ideal .f32) (A : Mat M k) (β : Fin k → Ideal .f32) :
    biasRelu z (rowBlock R t h A) β = rowBlock R t h (biasRelu z A β) := rfl

theorem plusScalar_rowBlock (X : Mat M n) (s : Ideal .f32) :
    plusScalar (rowBlock R t h X) s = rowBlock R t h (plusScalar X s) := rfl

end Cert.Dense

end
-- ==== Proof.Layer0.lean ====
/-
  The first dense layer, h1 = x · W1, computed by a grid of twenty points: point t multiplies rows 5000·t … 5000·t + 4999
  of x (all 256 columns) by the whole of W1 and writes rows 5000·t … 5000·t + 4999 of the result.

  At the exact arithmetic of the extended reals the narrowing of both operands to bf16 is the identity and the product
  into a zero accumulator is the textbook product, so the block a point writes is the product of its block of rows of x
  with W1; a product acts row by row, so that block is the same block of rows of the whole product x · W1. The twenty
  blocks of rows tile the hundred thousand rows (row r lies in block r / 5000), hence the array the region leaves IS
  x · W1, for whatever contents `V` the region finds in its two operand arrays.
-/
import proofs.«120151_j10685878632451_1_alg».proof.Proof.Gen.KernelIdeal.Frame
import proofs.«120151_j10685878632451_1_alg».proof.Proof.LibDense
import Idealize.ShloMosaic.Lib.Pipeline.Value

set_option maxRecDepth 16384

noncomputable section

namespace Cert.KernelIdeal.Layer0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Dense

variable (V : (c : Dev nD) → (b : Ref sig .tc) → Buf (Elt Ideal) ((c : Thread nD τ).loc b))

/-- The origin of a rank-2 buffer. -/
theorem hz : (![0, 0] : Fin 2 → Nat) = fun _ => 0 := funext fun a => by fin_cases a <;> rfl

/-- The block's payload is the product of the two loaded blocks. -/
theorem pay_eq (v0 : Vec Ideal S5000x256 .f32) (v2 : Vec Ideal S256x128 .f32) :
    k0_pay1 v0 v2 = mm (m := 5000) (k := 256) (n := 128) v0 v2 :=
  matmul_plain_zero_eq_mm (m := 5000) (k := 256) (n := 128) none v0 v2

/-- The printed index maps over the grid: the block of x and the block of the result move down one block of rows per
    point, all columns; W1 is fetched whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product: each entry is a sum over the shared coordinate, and
    term by term the block's entries are the arrays' entries at the block's rows. -/
theorem flushed_eq (c : Dev nD) (t : Fin cfg0.N) :
    (dat0 V c).flushed 2 t = ((cfg0.win 2).blk t).view.read (Elt Ideal) (mm (m := 100000) (k := 256) (n := 128) (V c main_arg0) (V c main_arg2)) := by
  show (cfg0.win 2).cut (grid0.coords t) ((dat0 V c).after 2 t) = _
  rw [after0_2]
  unfold out0_2
  rw [View.canon_unit_zero hz]
  simp only [View.ld_unit_zero (S := S5000x256) hz, View.ld_unit_zero (S := S256x128) hz]
  rw [pay_eq]
  obtain ⟨e00, e01, e10, e11, e20, e21⟩ := idx_facts t
  funext j
  show mm (m := 5000) (k := 256) (n := 128) (iblk0 V c 0 t) (iblk0 V c 1 t) j
    = mm (m := 100000) (k := 256) (n := 128) (V c main_arg0) (V c main_arg2) (((cfg0.win 2).blk t).view.emb j)
  unfold mm
  refine Finset.sum_congr rfl fun cc _ => ?_
  have hA : iblk0 V c 0 t (ix2 (j 0 : Fin 5000) cc)
      = V c main_arg0 (ix2 ((((cfg0.win 2).blk t).view.emb j) 0 : Fin 100000) cc) := by
    show V c main_arg0 (((cfg0.win 0).blk t).view.emb (ix2 (j 0 : Fin 5000) cc)) = _
    refine congrArg (V c main_arg0) ?_
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 256 + 1 * cc.val = cc.val; omega
  have hB : iblk0 V c 1 t (ix2 cc (j 1 : Fin 128))
      = V c main_arg2 (ix2 cc ((((cfg0.win 2).blk t).view.emb j) 1 : Fin 128)) := by
    show V c main_arg2 (((cfg0.win 1).blk t).view.emb (ix2 cc (j 1 : Fin 128))) = _
    refine congrArg (V c main_arg2) ?_
    funext a; apply Fin.ext
    match a with
    | ⟨0, _⟩ => show win0_1.index t (0 : Fin 2) * 256 + 1 * cc.val = cc.val; omega
    | ⟨1, _⟩ => show win0_1.index t (1 : Fin 2) * 128 + 1 * (j 1).val = win0_2.index t (1 : Fin 2) * 128 + 1 * (j 1).val; omega
  rw [hA, hB]

/-- An index of the array lies in point `t`'s block iff every coordinate lies in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v29).slice (win0_2.rect t)).set ↔ _
  rw [View.set_slice_whole, Rect.mem_set_unit]
  exact Iff.rfl

/-- The array after the region: the product of the two argument arrays as the region found them. -/
theorem final (c : Dev nD) :
    (dat0 V c).arrAt 2 cfg0.N = mm (m := 100000) (k := 256) (n := 128) (V c main_arg0) (V c main_arg2) :=
  (dat0 V c).arrAt_eq_of_cover 2 _ (fun t _ => flushed_eq V c t) fun i => by
    have hi0 : (i 0).val < 100000 := (i 0).isLt
    have hi1 : (i 1).val < 128 := (i 1).isLt
    have hN := N_0
    have ht : (i 0).val / 5000 < cfg0.N := by show _ < grid0.N; omega
    obtain ⟨e00, e01, e10, e11, e20, e21⟩ := idx_facts ⟨(i 0).val / 5000, ht⟩
    refine ⟨⟨(i 0).val / 5000, ht⟩, flush0_2 _, ?_⟩
    rw [mem_blk]
    intro a
    match a with
    | ⟨0, _⟩ =>
      show win0_2.index ⟨(i 0).val / 5000, ht⟩ (0 : Fin 2) * 5000 ≤ (i 0).val ∧ (i 0).val < win0_2.index ⟨(i 0).val / 5000, ht⟩ (0 : Fin 2) * 5000 + 5000
      have : (⟨(i 0).val / 5000, ht⟩ : Fin cfg0.N).val = (i 0).val / 5000 := rfl
      omega
    | ⟨1, _⟩ =>
      show win0_2.index ⟨(i 0).val / 5000, ht⟩ (1 : Fin 2) * 128 ≤ (i 1).val ∧ (i 1).val < win0_2.index ⟨(i 0).val / 5000, ht⟩ (1 : Fin 2) * 128 + 128
      omega

end Cert.KernelIdeal.Layer0

end
-- ==== Proof.Layer1.lean ====
/-
  The second dense layer, fused with the first layer's bias and rectifier: h2 = max(agg1 + b1, 0) · W2, computed by a grid
  of twenty points: point t takes rows 5000·t … 5000·t + 4999 of agg1 (all 128 columns), the bias as ONE row, and the
  whole of W2, and writes the same rows of the result.

  At the exact arithmetic of the extended reals the narrowings to bf16 are the identity, the one-row bias laid along the
  rows adds b1 c in column c, the maximum with the zero splat is the rectifier, and the product into a zero accumulator
  is the textbook product. All three act row by row, so the block a point writes is the same block of rows of
  max(agg1 + b1, 0) · W2 over the WHOLE of agg1; the twenty blocks of rows tile the rows, hence the array the region leaves
  is that matrix, for whatever contents `V` the region finds in its three operand arrays.
-/
import proofs.«120151_j10685878632451_1_alg».proof.Proof.Gen.KernelIdeal.Frame
import proofs.«120151_j10685878632451_1_alg».proof.Proof.LibDense
import Idealize.ShloMosaic.Lib.Pipeline.Value

set_option maxRecDepth 16384

noncomputable section

namespace Cert.KernelIdeal.Layer1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Dense

variable (V : (c : Dev nD) → (b : Ref sig .tc) → Buf (Elt Ideal) ((c : Thread nD τ).loc b))

/-- The origin of a rank-2 buffer. -/
theorem hz : (![0, 0] : Fin 2 → Nat) = fun _ => 0 := funext fun a => by fin_cases a <;> rfl

/-- The layer as one function of the whole arrays: max(A + β, 0) · W, the bias read off its one-row array. -/
def layer (A : Mat 100000 128) (b : FVec Ideal ⟨2, ![1, 128]⟩ .f32) (W : Mat 128 64) : Mat 100000 64 :=
  mm (biasRelu (Ideal.ofBits .f32 0x00000000#32) A (fun cc => b (ix2 (0 : Fin 1) cc))) W

/-- The block's payload is the layer on the loaded blocks. -/
theorem pay_eq (v0 : Vec Ideal S5000x128 .f32) (v2 : Vec Ideal S1x128 .f32) (v9 : Vec Ideal S128x64 .f32) :
    k1_pay1 v0 v2 v9 = mm (m := 5000) (k := 128) (n := 64)
      (biasRelu (Ideal.ofBits .f32 0x00000000#32) v0 (fun cc => v2 (ix2 (0 : Fin 1) cc))) v9 := by
  unfold k1_pay1
  show matmul (DotDims.plain 5000 128 64) none
      (truncf .bf16 (maximumf (addf (shapeCast S5000x128 v0 shapeCasts_S5000x128_S5000x128)
        (broadcastTo S5000x128 (shapeCast S1x128 v2 shapeCasts_S1x128_S1x128) broadcasts_S1x128_S5000x128))
        (broadcast S5000x128 (Scalar.ofBits (F := Ideal) .f32 0x00000000#32))) bitsLt_bf16_f32)
      (truncf .bf16 v9 bitsLt_bf16_f32) (constant ⟨2, ![5000, 64]⟩ .f32 0x00000000#32) = _
  rw [matmul_plain_zero_eq_mm, shapeCast_self, shapeCast_self]
  show mm (m := 5000) (k := 128) (n := 64)
      (maximumf (addf v0 (broadcastTo ⟨2, ![5000, 128]⟩ v2 broadcasts_S1x128_S5000x128))
        (broadcast ⟨2, ![5000, 128]⟩ (Scalar.ofBits (F := Ideal) .f32 0x00000000#32))) v9 = _
  rw [biasRelu_of_broadcast]

/-- The printed index maps over the grid: the block of agg1 and the block of the result move down one block of rows per
    point; the bias row and W2 are fetched whole. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of the layer of the whole arrays: its block of agg1 is a block of rows, the
    other two operands are whole, and the layer commutes with taking a block of rows. -/
theorem flushed_eq (c : Dev nD) (t : Fin cfg1.N) :
    (dat1 V c).flushed 3 t = ((cfg1.win 3).blk t).view.read (Elt Ideal)
      (layer (V c main_v42) (V c main_v43) (V c main_arg4)) := by
  show (cfg1.win 3).cut (grid1.coords t) ((dat1 V c).after 3 t) = _
  rw [after1_3]
  unfold out1_3
  rw [View.canon_unit_zero hz]
  simp only [View.ld_unit_zero (S := S5000x128) hz, View.ld_unit_zero (S := S1x128) hz, View.ld_unit_zero (S := S128x64) hz]
  rw [pay_eq]
  obtain ⟨e00, e01, e10, e11, e20, e21, e30, e31⟩ := idx_facts t
  have htN : t.val < 20 := by have := t.isLt; have e : t.val < grid1.N := this; rw [N_1] at e; exact e
  have ht : t.val * 5000 + 5000 ≤ 100000 := by omega
  have h0 : (iblk1 V c 0 t : Mat 5000 128) = rowBlock 5000 t.val ht (V c main_v42) := by
    funext y
    show V c main_v42 (((cfg1.win 0).blk t).view.emb y) = V c main_v42 _
    refine congrArg (V c main_v42) ?_
    funext a; apply Fin.ext
    match a with
    | ⟨0, _⟩ => show win1_0.index t (0 : Fin 2) * 5000 + 1 * (y 0).val = t.val * 5000 + (y 0).val; omega
    | ⟨1, _⟩ => show win1_0.index t (1 : Fin 2) * 128 + 1 * (y 1).val = (y 1).val; omega
  have h1 : (iblk1 V c 1 t : FVec Ideal ⟨2, ![1, 128]⟩ .f32) = V c main_v43 := by
    funext y
    show V c main_v43 (((cfg1.win 1).blk t).view.emb y) = V c main_v43 y
    refine congrArg (V c main_v43) ?_
    funext a; apply Fin.ext
    match a with
    | ⟨0, _⟩ => show win1_1.index t (0 : Fin 2) * 1 + 1 * (y 0).val = (y 0).val; omega
    | ⟨1, _⟩ => show win1_1.index t (1 : Fin 2) * 128 + 1 * (y 1).val = (y 1).val; omega
  have h2 : (iblk1 V c 2 t : Mat 128 64) = V c main_arg4 := by
    funext y
    show V c main_arg4 (((cfg1.win 2).blk t).view.emb y) = V c main_arg4 y
    refine congrArg (V c main_arg4) ?_
    funext a; apply Fin.ext
    match a with
    | ⟨0, _⟩ => show win1_2.index t (0 : Fin 2) * 128 + 1 * (y 0).val = (y 0).val; omega
    | ⟨1, _⟩ => show win1_2.index t (1 : Fin 2) * 64 + 1 * (y 1).val = (y 1).val; omega
  rw [h0, h1, h2, biasRelu_rowBlock, mm_rowBlock]
  funext j
  show layer (V c main_v42) (V c main_v43) (V c main_arg4) _ = layer (V c main_v42) (V c main_v43) (V c main_arg4) (((cfg1.win 3).blk t).view.emb j)
  refine congrArg (layer (V c main_v42) (V c main_v43) (V c main_arg4)) ?_
  funext a; apply Fin.ext
  match a with
  | ⟨0, _⟩ => show t.val * 5000 + (j 0).val = win1_3.index t (0 : Fin 2) * 5000 + 1 * (j 0).val; omega
  | ⟨1, _⟩ => show (j 1).val = win1_3.index t (1 : Fin 2) * 64 + 1 * (j 1).val; omega

/-- An index of the array lies in point `t`'s block iff every coordinate lies in the block's range on its axis. -/
theorem mem_blk (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v44).slice (win1_3.rect t)).set ↔ _
  rw [View.set_slice_whole, Rect.mem_set_unit]
  exact Iff.rfl

/-- The array after the region: the layer of the three arrays as the region found them (row r is in block r / 5000). -/
theorem final (c : Dev nD) :
    (dat1 V c).arrAt 3 cfg1.N = layer (V c main_v42) (V c main_v43) (V c main_arg4) :=
  (dat1 V c).arrAt_eq_of_cover 3 _ (fun t _ => flushed_eq V c t) fun i => by
    have hi0 : (i 0).val < 100000 := (i 0).isLt
    have hi1 : (i 1).val < 64 := (i 1).isLt
    have hN := N_1
    have ht : (i 0).val / 5000 < cfg1.N := by show _ < grid1.N; omega
    obtain ⟨e00, e01, e10, e11, e20, e21, e30, e31⟩ := idx_facts ⟨(i 0).val / 5000, ht⟩
    refine ⟨⟨(i 0).val / 5000, ht⟩, flush1_3 _, ?_⟩
    rw [mem_blk]
    intro a
    match a with
    | ⟨0, _⟩ =>
      show win1_3.index ⟨(i 0).val / 5000, ht⟩ (0 : Fin 2) * 5000 ≤ (i 0).val ∧ (i 0).val < win1_3.index ⟨(i 0).val / 5000, ht⟩ (0 : Fin 2) * 5000 + 5000
      have : (⟨(i 0).val / 5000, ht⟩ : Fin cfg1.N).val = (i 0).val / 5000 := rfl
      omega
    | ⟨1, _⟩ =>
      show win1_3.index ⟨(i 0).val / 5000, ht⟩ (1 : Fin 2) * 64 ≤ (i 1).val ∧ (i 1).val < win1_3.index ⟨(i 0).val / 5000, ht⟩ (1 : Fin 2) * 64 + 64
      omega

end Cert.KernelIdeal.Layer1

end
-- ==== Proof.Layer2.lean ====
/-
  The decoder, a two-layer perceptron on the concatenated endpoint features of each edge:
  out = max(z_cat · Wp1 + bp1, 0) · Wp2 + bp2, computed by a grid of one hundred points: point t takes rows
  10000·t … 10000·t + 9999 of z_cat (all 128 columns), the two weight matrices whole, the two biases as one-row arrays,
  and writes the same rows of the one-column result.

  At the exact arithmetic of the extended reals the narrowings to bf16 are the identity, each product into a zero
  accumulator is the textbook product, a one-row bias laid along the rows adds its entry of that column, the maximum with
  the zero splat is the rectifier. Every one of these acts row by row, so the block a point writes is the same block of
  rows of the perceptron applied to the WHOLE of z_cat; the hundred blocks of rows tile the million rows (row r lies in
  block r / 10000), hence the array the region leaves is the perceptron of the arrays as the region finds them (`V`).
-/
import proofs.«120151_j10685878632451_1_alg».proof.Proof.Gen.KernelIdeal.Frame
import proofs.«120151_j10685878632451_1_alg».proof.Proof.LibDense
import Idealize.ShloMosaic.Lib.Pipeline.Value

set_option maxRecDepth 16384

noncomputable section

namespace Cert.KernelIdeal.Layer2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Dense

variable (V : (c : Dev nD) → (b : Ref sig .tc) → Buf (Elt Ideal) ((c : Thread nD τ).loc b))

/-- The origin of a rank-2 buffer. -/
theorem hz : (![0, 0] : Fin 2 → Nat) = fun _ => 0 := funext fun a => by fin_cases a <;> rfl

/-- The perceptron with `r` rows of input: max(Z · W1 + β1, 0) · W2 + β2, the biases read off their one-row arrays. -/
def perceptron {r : Nat} (Z : Mat r 128) (W1 : Mat 128 64) (b1 : FVec Ideal ⟨2, ![1, 64]⟩ .f32) (W2 : Mat 64 1)
    (b2 : FVec Ideal ⟨2, ![1, 1]⟩ .f32) : Mat r 1 :=
  plusScalar (mm (biasRelu (Ideal.ofBits .f32 0x00000000#32) (mm Z W1) (fun h => b1 (ix2 (0 : Fin 1) h))) W2)
    (b2 (ix2 (0 : Fin 1) (0 : Fin 1)))

/-- The perceptron acts row by row: on a block of rows it gives that block of rows of the whole result. -/
theorem perceptron_rowBlock {M : Nat} (R t : Nat) (h : t * R + R ≤ M) (Z : Mat M 128) (W1 : Mat 128 64)
    (b1 : FVec Ideal ⟨2, ![1, 64]⟩ .f32) (W2 : Mat 64 1) (b2 : FVec Ideal ⟨2, ![1, 1]⟩ .f32) :
    perceptron (rowBlock R t h Z) W1 b1 W2 b2 = rowBlock R t h (perceptron Z W1 b1 W2 b2) := rfl

/-- The block's payload is the perceptron on the loaded blocks. -/
theorem pay_eq (v0 : Vec Ideal S10000x128 .f32) (v3 : Vec Ideal S128x64 .f32) (v6 : Vec Ideal S1x64 .f32)
    (v13 : Vec Ideal S64x1 .f32) (v16 : Vec Ideal S1x1 .f32) :
    k2_pay1 v0 v3 v6 v13 v16 = perceptron (r := 10000) v0 v3 v6 v13 v16 := by
  unfold k2_pay1 perceptron
  show addf (matmul (DotDims.plain 10000 64 1) none
        (truncf .bf16 (maximumf (addf (matmul (DotDims.plain 10000 128 64) none
              (truncf .bf16 (shapeCast S10000x128 v0 shapeCasts_S10000x128_S10000x128) bitsLt_bf16_f32)
              (truncf .bf16 v3 bitsLt_bf16_f32) (constant ⟨2, ![10000, 64]⟩ .f32 0x00000000#32))
            (broadcastTo S10000x64 (shapeCast S1x64 v6 shapeCasts_S1x64_S1x64) broadcasts_S1x64_S10000x64))
          (broadcast S10000x64 (Scalar.ofBits (F := Ideal) .f32 0x00000000#32))) bitsLt_bf16_f32)
        (truncf .bf16 v13 bitsLt_bf16_f32) (constant ⟨2, ![10000, 1]⟩ .f32 0x00000000#32))
      (broadcastTo S10000x1 (shapeCast S1x1 v16 shapeCasts_S1x1_S1x1) broadcasts_S1x1_S10000x1) = _
  rw [shapeCast_self, shapeCast_self, shapeCast_self, matmul_plain_zero_eq_mm, matmul_plain_zero_eq_mm]
  show addf (mm (m := 10000) (k := 64) (n := 1)
        (maximumf (addf (mm (m := 10000) (k := 128) (n := 64) v0 v3) (broadcastTo ⟨2, ![10000, 64]⟩ v6 broadcasts_S1x64_S10000x64))
          (broadcast ⟨2, ![10000, 64]⟩ (Scalar.ofBits (F := Ideal) .f32 0x00000000#32))) v13)
      (broadcastTo ⟨2, ![10000, 1]⟩ v16 broadcasts_S1x1_S10000x1) = _
  rw [biasRelu_of_broadcast, plusScalar_of_broadcast]

/-- The printed index maps over the grid: the block of z_cat and the block of the result move down one block of rows per
    point; the weights and the bias rows are fetched whole. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

set_option maxHeartbeats 8000000 in
/-- What point `t` writes back is block `t` of the perceptron of the whole arrays: its block of z_cat is a block of
    rows, the other four operands are whole, and the perceptron commutes with taking a block of rows. -/
theorem flushed_eq (c : Dev nD) (t : Fin cfg2.N) :
    (dat2 V c).flushed 5 t = ((cfg2.win 5).blk t).view.read (Elt Ideal)
      (perceptron (r := 1000000) (V c main_v79) (V c main_arg6) (V c main_v80) (V c main_arg8) (V c main_v81)) := by
  show (cfg2.win 5).cut (grid2.coords t) ((dat2 V c).after 5 t) = _
  rw [after2_5]
  unfold out2_5
  rw [View.canon_unit_zero hz]
  simp only [View.ld_unit_zero (S := S10000x128) hz, View.ld_unit_zero (S := S128x64) hz, View.ld_unit_zero (S := S1x64) hz,
    View.ld_unit_zero (S := S64x1) hz, View.ld_unit_zero (S := S1x1) hz]
  rw [pay_eq]
  obtain ⟨e00, e01, e10, e11, e20, e21, e30, e31, e40, e41, e50, e51⟩ := idx_facts t
  have htN : t.val < 100 := by have := t.isLt; have e : t.val < grid2.N := this; rw [N_2] at e; exact e
  have ht : t.val * 10000 + 10000 ≤ 1000000 := by omega
  have h0 : (iblk2 V c 0 t : Mat 10000 128) = rowBlock 10000 t.val ht (V c main_v79) := by
    funext y
    show V c main_v79 (((cfg2.win 0).blk t).view.emb y) = V c main_v79 _
    refine congrArg (V c main_v79) ?_
    funext a; apply Fin.ext
    match a with
    | ⟨0, _⟩ => show win2_0.index t (0 : Fin 2) * 10000 + 1 * (y 0).val = t.val * 10000 + (y 0).val; omega
    | ⟨1, _⟩ => show win2_0.index t (1 : Fin 2) * 128 + 1 * (y 1).val = (y 1).val; omega
  have h1 : (iblk2 V c 1 t : Mat 128 64) = V c main_arg6 := by
    funext y
    show V c main_arg6 (((cfg2.win 1).blk t).view.emb y) = V c main_arg6 y
    refine congrArg (V c main_arg6) ?_
    funext a; apply Fin.ext
    match a with
    | ⟨0, _⟩ => show win2_1.index t (0 : Fin 2) * 128 + 1 * (y 0).val = (y 0).val; omega
    | ⟨1, _⟩ => show win2_1.index t (1 : Fin 2) * 64 + 1 * (y 1).val = (y 1).val; omega
  have h2 : (iblk2 V c 2 t : FVec Ideal ⟨2, ![1, 64]⟩ .f32) = V c main_v80 := by
    funext y
    show V c main_v80 (((cfg2.win 2).blk t).view.emb y) = V c main_v80 y
    refine congrArg (V c main_v80) ?_
    funext a; apply Fin.ext
    match a with
    | ⟨0, _⟩ => show win2_2.index t (0 : Fin 2) * 1 + 1 * (y 0).val = (y 0).val; omega
    | ⟨1, _⟩ => show win2_2.index t (1 : Fin 2) * 64 + 1 * (y 1).val = (y 1).val; omega
  have h3 : (iblk2 V c 3 t : Mat 64 1) = V c main_arg8 := by
    funext y
    show V c main_arg8 (((cfg2.win 3).blk t).view.emb y) = V c main_arg8 y
    refine congrArg (V c main_arg8) ?_
    funext a; apply Fin.ext
    match a with
    | ⟨0, _⟩ => show win2_3.index t (0 : Fin 2) * 64 + 1 * (y 0).val = (y 0).val; omega
    | ⟨1, _⟩ => show win2_3.index t (1 : Fin 2) * 1 + 1 * (y 1).val = (y 1).val; omega
  have h4 : (iblk2 V c 4 t : FVec Ideal ⟨2, ![1, 1]⟩ .f32) = V c main_v81 := by
    funext y
    show V c main_v81 (((cfg2.win 4).blk t).view.emb y) = V c main_v81 y
    refine congrArg (V c main_v81) ?_
    funext a; apply Fin.ext
    match a with
    | ⟨0, _⟩ => show win2_4.index t (0 : Fin 2) * 1 + 1 * (y 0).val = (y 0).val; omega
    | ⟨1, _⟩ => show win2_4.index t (1 : Fin 2) * 1 + 1 * (y 1).val = (y 1).val; omega
  rw [h0, h1, h2, h3, h4, perceptron_rowBlock]
  generalize perceptron (r := 1000000) (V c main_v79) (V c main_arg6) (V c main_v80) (V c main_arg8) (V c main_v81) = G
  funext j
  show G _ = G (((cfg2.win 5).blk t).view.emb j)
  refine congrArg G ?_
  funext a; apply Fin.ext
  match a with
  | ⟨0, _⟩ => show t.val * 10000 + (j 0).val = win2_5.index t (0 : Fin 2) * 10000 + 1 * (j 0).val; omega
  | ⟨1, _⟩ => show (j 1).val = win2_5.index t (1 : Fin 2) * 1 + 1 * (j 1).val; omega

/-- An index of the array lies in point `t`'s block iff every coordinate lies in the block's range on its axis. -/
theorem mem_blk (t : Fin cfg2.N) (i : S1000000x1.Idx) :
    i ∈ ((cfg2.win 5).blk t).view.set ↔ ∀ a : Fin 2, win2_5.index t a * S10000x1.size a ≤ (i a).val ∧ (i a).val < win2_5.index t a * S10000x1.size a + S10000x1.size a := by
  show i ∈ ((View.whole main_v82).slice (win2_5.rect t)).set ↔ _
  rw [View.set_slice_whole, Rect.mem_set_unit]
  exact Iff.rfl

/-- The array after the region: the perceptron of the five arrays as the region found them (row r is in block
    r / 10000). -/
theorem final (c : Dev nD) :
    (dat2 V c).arrAt 5 cfg2.N
      = perceptron (r := 1000000) (V c main_v79) (V c main_arg6) (V c main_v80) (V c main_arg8) (V c main_v81) :=
  (dat2 V c).arrAt_eq_of_cover 5 _ (fun t _ => flushed_eq V c t) fun i => by
    have hi0 : (i 0).val < 1000000 := (i 0).isLt
    have hi1 : (i 1).val < 1 := (i 1).isLt
    have hN := N_2
    have ht : (i 0).val / 10000 < cfg2.N := by show _ < grid2.N; omega
    obtain ⟨e00, e01, e10, e11, e20, e21, e30, e31, e40, e41, e50, e51⟩ := idx_facts ⟨(i 0).val / 10000, ht⟩
    refine ⟨⟨(i 0).val / 10000, ht⟩, flush2_5 _, ?_⟩
    rw [mem_blk]
    intro a
    match a with
    | ⟨0, _⟩ =>
      show win2_5.index ⟨(i 0).val / 10000, ht⟩ (0 : Fin 2) * 10000 ≤ (i 0).val ∧ (i 0).val < win2_5.index ⟨(i 0).val / 10000, ht⟩ (0 : Fin 2) * 10000 + 10000
      have : (⟨(i 0).val / 10000, ht⟩ : Fin cfg2.N).val = (i 0).val / 10000 := rfl
      omega
    | ⟨1, _⟩ =>
      show win2_5.index ⟨(i 0).val / 10000, ht⟩ (1 : Fin 2) * 1 ≤ (i 1).val ∧ (i 1).val < win2_5.index ⟨(i 0).val / 10000, ht⟩ (1 : Fin 2) * 1 + 1
      omega

end Cert.KernelIdeal.Layer2

end
-- ==== Proof.KernelStages.lean ====
/-
  The idealized kernel program, boundary by boundary: what each buffer that a later stretch reads holds when the stretch
  begins, named as the SAME function of the argument arrays that the reference's stage computes.

  @main is seven stretches: host operations (the normalisation of the graph: source and destination lists with
  self-loops, degrees, the edge weights), the first dense layer, host operations (gather the transformed rows along the
  edges, weigh, scatter-add per destination), the second dense layer fused with the first's bias and rectifier, host
  operations (the same aggregation, the second bias, the two endpoint gathers and their concatenation), the decoder
  perceptron, and the final reshape. The contents at each boundary are a fold of the previous boundary's. Every host
  stretch applies, operation for operation, the reference's own operations to the same operands, so its results are the
  reference's stages of the same name once its operands are; the three dense regions leave the textbook layer of the
  arrays they find (the layer modules), and at the exact arithmetic of the extended reals the reference's dot_general,
  bias broadcast and rectifier are those same layers, entry by entry.
-/
import proofs.«120151_j10685878632451_1_alg».proof.Proof.Gen.KernelIdeal.Frame
import proofs.«120151_j10685878632451_1_alg».proof.Proof.Gen.ReferenceIdeal.Read
import proofs.«120151_j10685878632451_1_alg».proof.Proof.LibDense
import proofs.«120151_j10685878632451_1_alg».proof.Proof.Layer0
import proofs.«120151_j10685878632451_1_alg».proof.Proof.Layer1
import proofs.«120151_j10685878632451_1_alg».proof.Proof.Layer2
import Idealize.ShloMosaic.Lib.StableHlo.Run

set_option maxRecDepth 16384
set_option maxHeartbeats 8000000

noncomputable section

namespace Cert.KernelIdeal.Stages

open Idealize.ShloMosaic Idealize.ShloMosaic.TcCoe Idealize.ShloMosaic.ValueIdx Idealize.SL.Sem Idealize.ShloMosaic.StableHlo
open Cert.KernelIdeal Cert.KernelIdeal.Gen Cert.Dense

variable (m : (ℓ : Loc nD τ sig) → Buf (Elt Ideal) ℓ) (ρ : Dev nD → PrngReg)

/-- The ten argument arrays at launch. -/
abbrev x0 (c : Dev nD) := m ((c : Thread nD τ).loc main_arg0)
abbrev x1 (c : Dev nD) := m ((c : Thread nD τ).loc main_arg1)
abbrev x2 (c : Dev nD) := m ((c : Thread nD τ).loc main_arg2)
abbrev x3 (c : Dev nD) := m ((c : Thread nD τ).loc main_arg3)
abbrev x4 (c : Dev nD) := m ((c : Thread nD τ).loc main_arg4)
abbrev x5 (c : Dev nD) := m ((c : Thread nD τ).loc main_arg5)
abbrev x6 (c : Dev nD) := m ((c : Thread nD τ).loc main_arg6)
abbrev x7 (c : Dev nD) := m ((c : Thread nD τ).loc main_arg7)
abbrev x8 (c : Dev nD) := m ((c : Thread nD τ).loc main_arg8)
abbrev x9 (c : Dev nD) := m ((c : Thread nD τ).loc main_arg9)

/-! ## An argument array is written by nothing: at every boundary it holds its launch contents -/

/-- x when the first dense layer begins. -/
theorem x_entry (c : Dev nD) : W1 m ρ c (Proc.devRef .tc main_arg0) = x0 m c := by
  show StableHlo.after hostOps0 (W0 m ρ c) (Proc.devRef .tc main_arg0) = _
  after_results_simp
/-- W1 when the first dense layer begins. -/
theorem w1_entry (c : Dev nD) : W1 m ρ c (Proc.devRef .tc main_arg2) = x2 m c := by
  show StableHlo.after hostOps0 (W0 m ρ c) (Proc.devRef .tc main_arg2) = _
  after_results_simp
/-- b1 after the first dense layer. -/
theorem b1_after0 (c : Dev nD) : W2 m ρ c (Proc.devRef .tc main_arg3) = x3 m c := by
  rw [W2_of_ne m ρ c main_arg3 (by decide)]
  show StableHlo.after hostOps0 (W0 m ρ c) (Proc.devRef .tc main_arg3) = _
  after_results_simp
/-- W2 when the second dense layer begins. -/
theorem w2_entry (c : Dev nD) : W3 m ρ c (Proc.devRef .tc main_arg4) = x4 m c := by
  show StableHlo.after hostOps1 (W2 m ρ c) (Proc.devRef .tc main_arg4) = _
  after_results_simp
  rw [W2_of_ne m ρ c main_arg4 (by decide)]
  show StableHlo.after hostOps0 (W0 m ρ c) (Proc.devRef .tc main_arg4) = _
  after_results_simp
/-- The edge list after the second dense layer. -/
theorem edges_after1 (c : Dev nD) : W4 m ρ c (Proc.devRef .tc main_arg1) = x1 m c := by
  rw [W4_of_ne m ρ c main_arg1 (by decide)]
  show StableHlo.after hostOps1 (W2 m ρ c) (Proc.devRef .tc main_arg1) = _
  after_results_simp
  rw [W2_of_ne m ρ c main_arg1 (by decide)]
  show StableHlo.after hostOps0 (W0 m ρ c) (Proc.devRef .tc main_arg1) = _
  after_results_simp
/-- b2 after the second dense layer. -/
theorem b2_after1 (c : Dev nD) : W4 m ρ c (Proc.devRef .tc main_arg5) = x5 m c := by
  rw [W4_of_ne m ρ c main_arg5 (by decide)]
  show StableHlo.after hostOps1 (W2 m ρ c) (Proc.devRef .tc main_arg5) = _
  after_results_simp
  rw [W2_of_ne m ρ c main_arg5 (by decide)]
  show StableHlo.after hostOps0 (W0 m ρ c) (Proc.devRef .tc main_arg5) = _
  after_results_simp
/-- bp1 after the second dense layer. -/
theorem bp1_after1 (c : Dev nD) : W4 m ρ c (Proc.devRef .tc main_arg7) = x7 m c := by
  rw [W4_of_ne m ρ c main_arg7 (by decide)]
  show StableHlo.after hostOps1 (W2 m ρ c) (Proc.devRef .tc main_arg7) = _
  after_results_simp
  rw [W2_of_ne m ρ c main_arg7 (by decide)]
  show StableHlo.after hostOps0 (W0 m ρ c) (Proc.devRef .tc main_arg7) = _
  after_results_simp
/-- bp2 after the second dense layer. -/
theorem bp2_after1 (c : Dev nD) : W4 m ρ c (Proc.devRef .tc main_arg9) = x9 m c := by
  rw [W4_of_ne m ρ c main_arg9 (by decide)]
  show StableHlo.after hostOps1 (W2 m ρ c) (Proc.devRef .tc main_arg9) = _
  after_results_simp
  rw [W2_of_ne m ρ c main_arg9 (by decide)]
  show StableHlo.after hostOps0 (W0 m ρ c) (Proc.devRef .tc main_arg9) = _
  after_results_simp
/-- Wp1 when the decoder begins. -/
theorem wp1_entry (c : Dev nD) : W5 m ρ c (Proc.devRef .tc main_arg6) = x6 m c := by
  show StableHlo.after hostOps2 (W4 m ρ c) (Proc.devRef .tc main_arg6) = _
  after_results_simp
  rw [W4_of_ne m ρ c main_arg6 (by decide)]
  show StableHlo.after hostOps1 (W2 m ρ c) (Proc.devRef .tc main_arg6) = _
  after_results_simp
  rw [W2_of_ne m ρ c main_arg6 (by decide)]
  show StableHlo.after hostOps0 (W0 m ρ c) (Proc.devRef .tc main_arg6) = _
  after_results_simp
/-- Wp2 when the decoder begins. -/
theorem wp2_entry (c : Dev nD) : W5 m ρ c (Proc.devRef .tc main_arg8) = x8 m c := by
  show StableHlo.after hostOps2 (W4 m ρ c) (Proc.devRef .tc main_arg8) = _
  after_results_simp
  rw [W4_of_ne m ρ c main_arg8 (by decide)]
  show StableHlo.after hostOps1 (W2 m ρ c) (Proc.devRef .tc main_arg8) = _
  after_results_simp
  rw [W2_of_ne m ρ c main_arg8 (by decide)]
  show StableHlo.after hostOps0 (W0 m ρ c) (Proc.devRef .tc main_arg8) = _
  after_results_simp

/-! ## The graph's normalisation: source list, destination list, edge weights -/

/-- The source list with self-loops, after the first host stretch. -/
theorem src_entry (c : Dev nD) : W1 m ρ c (Proc.devRef .tc main_v5) = Cert.ReferenceIdeal.Read.val_main_v5 (F := Ideal) (x1 m c) := by
  show StableHlo.after hostOps0 (W0 m ρ c) (Proc.devRef .tc main_v5) = _
  after_results
  rfl
/-- The destination list with self-loops, after the first host stretch. -/
theorem dst_entry (c : Dev nD) : W1 m ρ c (Proc.devRef .tc main_v6) = Cert.ReferenceIdeal.Read.val_main_v6 (F := Ideal) (x1 m c) := by
  show StableHlo.after hostOps0 (W0 m ρ c) (Proc.devRef .tc main_v6) = _
  after_results
  rfl
/-- The edge weights deg^(-1/2)[src] · deg^(-1/2)[dst], after the first host stretch. -/
theorem norm_entry (c : Dev nD) : W1 m ρ c (Proc.devRef .tc main_v28) = Cert.ReferenceIdeal.Read.val_main_v28 (F := Ideal) (x1 m c) := by
  show StableHlo.after hostOps0 (W0 m ρ c) (Proc.devRef .tc main_v28) = _
  after_results_simp
  rfl

/-- None of the three is an array of the first dense layer: it leaves them as it found them. -/
theorem src_after0 (c : Dev nD) : W2 m ρ c (Proc.devRef .tc main_v5) = Cert.ReferenceIdeal.Read.val_main_v5 (F := Ideal) (x1 m c) :=
  (W2_of_ne m ρ c main_v5 (by decide)).trans (src_entry m ρ c)
theorem dst_after0 (c : Dev nD) : W2 m ρ c (Proc.devRef .tc main_v6) = Cert.ReferenceIdeal.Read.val_main_v6 (F := Ideal) (x1 m c) :=
  (W2_of_ne m ρ c main_v6 (by decide)).trans (dst_entry m ρ c)
theorem norm_after0 (c : Dev nD) : W2 m ρ c (Proc.devRef .tc main_v28) = Cert.ReferenceIdeal.Read.val_main_v28 (F := Ideal) (x1 m c) :=
  (W2_of_ne m ρ c main_v28 (by decide)).trans (norm_entry m ρ c)

/-- Nor does the second host stretch or the second dense layer write them. -/
theorem src_after1 (c : Dev nD) : W4 m ρ c (Proc.devRef .tc main_v5) = Cert.ReferenceIdeal.Read.val_main_v5 (F := Ideal) (x1 m c) := by
  rw [W4_of_ne m ρ c main_v5 (by decide)]
  show StableHlo.after hostOps1 (W2 m ρ c) (Proc.devRef .tc main_v5) = _
  after_results_simp
  exact src_after0 m ρ c
theorem dst_after1 (c : Dev nD) : W4 m ρ c (Proc.devRef .tc main_v6) = Cert.ReferenceIdeal.Read.val_main_v6 (F := Ideal) (x1 m c) := by
  rw [W4_of_ne m ρ c main_v6 (by decide)]
  show StableHlo.after hostOps1 (W2 m ρ c) (Proc.devRef .tc main_v6) = _
  after_results_simp
  exact dst_after0 m ρ c
theorem norm_after1 (c : Dev nD) : W4 m ρ c (Proc.devRef .tc main_v28) = Cert.ReferenceIdeal.Read.val_main_v28 (F := Ideal) (x1 m c) := by
  rw [W4_of_ne m ρ c main_v28 (by decide)]
  show StableHlo.after hostOps1 (W2 m ρ c) (Proc.devRef .tc main_v28) = _
  after_results_simp
  exact norm_after0 m ρ c

/-! ## The first graph convolution -/

/-- The first dense layer leaves x · W1, which is the reference's dot_general of the two arguments. -/
theorem h1_exit (c : Dev nD) :
    W2 m ρ c (Proc.devRef .tc main_v29) = Cert.ReferenceIdeal.Read.val_main_v29 (F := Ideal) (x0 m c) (x2 m c) := by
  refine (W2_arr m ρ c 2).trans ((Layer0.final (V1 m ρ) c).trans ?_)
  rw [show V1 m ρ c main_arg0 = _ from x_entry m ρ c, show V1 m ρ c main_arg2 = _ from w1_entry m ρ c]
  exact (dotGeneral_plain_eq_mm (m := 100000) (k := 256) (n := 128) none (x0 m c) (x2 m c)).symm

/-- The aggregation of the first convolution: the reference's operations on the same four operands. -/
theorem agg1_entry (c : Dev nD) :
    W3 m ρ c (Proc.devRef .tc main_v42) = Cert.ReferenceIdeal.Read.val_main_v42 (F := Ideal) (x0 m c) (x1 m c) (x2 m c) := by
  show StableHlo.after hostOps1 (W2 m ρ c) (Proc.devRef .tc main_v42) = _
  after_results_simp
  rw [h1_exit, src_after0, dst_after0, norm_after0]
  rfl

/-- The first bias as a one-row array. -/
theorem b1row_entry (c : Dev nD) :
    W3 m ρ c (Proc.devRef .tc main_v43) = shapeCast S1x128 (x3 m c) shapeCasts_S128_S1x128 := by
  show StableHlo.after hostOps1 (W2 m ρ c) (Proc.devRef .tc main_v43) = _
  after_results_simp
  rw [b1_after0]
  rfl

/-! ## The second graph convolution -/

/-- The second dense layer leaves max(agg1 + b1, 0) · W2: the reference's bias broadcast, rectifier and dot_general,
    entry by entry. -/
theorem h2_exit (c : Dev nD) :
    W4 m ρ c (Proc.devRef .tc main_v44) = Cert.ReferenceIdeal.Read.val_main_v47 (F := Ideal) (x0 m c) (x1 m c) (x2 m c) (x3 m c) (x4 m c) := by
  refine (W4_arr m ρ c 3).trans ((Layer1.final (V3 m ρ) c).trans ?_)
  rw [show V3 m ρ c main_v42 = _ from agg1_entry m ρ c, show V3 m ρ c main_v43 = _ from b1row_entry m ρ c,
    show V3 m ρ c main_arg4 = _ from w2_entry m ρ c]
  unfold Layer1.layer Cert.ReferenceIdeal.Read.val_main_v47
  refine Eq.trans ?_ (dotGeneral_plain_eq_mm (m := 100000) (k := 128) (n := 64) none _ _).symm
  refine congrArg (fun X => mm (m := 100000) (k := 128) (n := 64) X (x4 m c)) ?_
  funext j
  rw [Cert.ReferenceIdeal.Read.val_main_v46_apply, Cert.ReferenceIdeal.Read.val_main_v45_apply, Cert.ReferenceIdeal.Read.val_main_v44_apply, Cert.ReferenceIdeal.Read.val_main_v43_apply,
    Cert.ReferenceIdeal.Read.val_main_call0_v0_apply, Cert.ReferenceIdeal.Read.val_main_call0_cst_apply]
  have e : shapeCast S1x128 (x3 m c) shapeCasts_S128_S1x128 (ix2 (0 : Fin 1) (j 1 : Fin 128))
      = x3 m c (Cert.ReferenceIdeal.Read.idx_main_v43 (Cert.ReferenceIdeal.Read.idx_main_v44 j)) :=
    (shapeCast_row_apply (n := 128) (x3 m c) shapeCasts_S128_S1x128 (j 1 : Fin 128)).trans
      (congrArg (x3 m c) (funext fun a => match a with | ⟨0, _⟩ => rfl))
  exact congrArg (fun v => max (Cert.ReferenceIdeal.Read.val_main_v42 (F := Ideal) (x0 m c) (x1 m c) (x2 m c) j + v)
    (Ideal.ofBits .f32 0x00000000#32)) e

/-- The second aggregation plus the second bias, the two endpoint gathers and their concatenation: the reference's
    operations on the same operands. -/
theorem zcat_entry (c : Dev nD) :
    W5 m ρ c (Proc.devRef .tc main_v79) = Cert.ReferenceIdeal.Read.val_main_v82 (F := Ideal) (x0 m c) (x1 m c) (x2 m c) (x3 m c) (x4 m c) (x5 m c) := by
  show StableHlo.after hostOps2 (W4 m ρ c) (Proc.devRef .tc main_v79) = _
  after_results_simp
  unfold Cert.ReferenceIdeal.Read.val_main_v82
  refine congrArg₂ (fun a b => concatenate S1000000x128 1 [⟨S1000000x64, a⟩, ⟨S1000000x64, b⟩]
    concatenates_S1000000x64_S1000000x64_S1000000x128_d1) ?_ ?_
  · after_results_simp
    rw [h2_exit, src_after1, dst_after1, norm_after1, b2_after1, edges_after1]
    rfl
  · after_results_simp
    rw [h2_exit, src_after1, dst_after1, norm_after1, b2_after1, edges_after1]
    rfl

/-- The decoder's two biases as one-row arrays. -/
theorem bp1row_entry (c : Dev nD) :
    W5 m ρ c (Proc.devRef .tc main_v80) = shapeCast S1x64 (x7 m c) shapeCasts_S64_S1x64 := by
  show StableHlo.after hostOps2 (W4 m ρ c) (Proc.devRef .tc main_v80) = _
  after_results_simp
  rw [bp1_after1]
  rfl
theorem bp2row_entry (c : Dev nD) :
    W5 m ρ c (Proc.devRef .tc main_v81) = shapeCast S1x1 (x9 m c) shapeCasts_S1_S1x1 := by
  show StableHlo.after hostOps2 (W4 m ρ c) (Proc.devRef .tc main_v81) = _
  after_results_simp
  rw [bp2_after1]
  rfl

/-! ## The decoder -/

/-- The decoder leaves the perceptron of z_cat: the reference's two dot_generals, bias broadcasts and rectifier, entry by
    entry. -/
theorem out_exit (c : Dev nD) :
    W6 m ρ c (Proc.devRef .tc main_v82) = Cert.ReferenceIdeal.Read.val_main_v91 (F := Ideal) (x0 m c) (x1 m c) (x2 m c) (x3 m c) (x4 m c) (x5 m c) (x6 m c) (x7 m c) (x8 m c) (x9 m c) := by
  refine (W6_arr m ρ c 5).trans ((Layer2.final (V5 m ρ) c).trans ?_)
  rw [show V5 m ρ c main_v79 = _ from zcat_entry m ρ c, show V5 m ρ c main_arg6 = _ from wp1_entry m ρ c,
    show V5 m ρ c main_v80 = _ from bp1row_entry m ρ c, show V5 m ρ c main_arg8 = _ from wp2_entry m ρ c,
    show V5 m ρ c main_v81 = _ from bp2row_entry m ρ c]
  have e83 : Cert.ReferenceIdeal.Read.val_main_v83 (F := Ideal) (x0 m c) (x1 m c) (x2 m c) (x3 m c) (x4 m c) (x5 m c) (x6 m c)
      = mm (m := 1000000) (k := 128) (n := 64) (Cert.ReferenceIdeal.Read.val_main_v82 (F := Ideal) (x0 m c) (x1 m c) (x2 m c) (x3 m c) (x4 m c) (x5 m c)) (x6 m c) := by
    unfold Cert.ReferenceIdeal.Read.val_main_v83
    exact dotGeneral_plain_eq_mm (m := 1000000) (k := 128) (n := 64) none _ _
  have e87 : Cert.ReferenceIdeal.Read.val_main_v87 (F := Ideal) (x0 m c) (x1 m c) (x2 m c) (x3 m c) (x4 m c) (x5 m c) (x6 m c) (x7 m c)
      = biasRelu (m := 1000000) (k := 64) (Ideal.ofBits .f32 0x00000000#32)
          (mm (m := 1000000) (k := 128) (n := 64) (Cert.ReferenceIdeal.Read.val_main_v82 (F := Ideal) (x0 m c) (x1 m c) (x2 m c) (x3 m c) (x4 m c) (x5 m c)) (x6 m c))
          (fun h => x7 m c (ix1 h)) := by
    funext j
    rw [Cert.ReferenceIdeal.Read.val_main_v87_apply, Cert.ReferenceIdeal.Read.val_main_v86_apply, Cert.ReferenceIdeal.Read.val_main_v85_apply, Cert.ReferenceIdeal.Read.val_main_v84_apply,
      Cert.ReferenceIdeal.Read.val_main_call1_v0_apply, Cert.ReferenceIdeal.Read.val_main_call1_cst_apply, e83]
    exact congrArg (fun i => max (_ + x7 m c i) _) (funext fun a => match a with | ⟨0, _⟩ => rfl)
  have e88 : Cert.ReferenceIdeal.Read.val_main_v88 (F := Ideal) (x0 m c) (x1 m c) (x2 m c) (x3 m c) (x4 m c) (x5 m c) (x6 m c) (x7 m c) (x8 m c)
      = mm (m := 1000000) (k := 64) (n := 1) (Cert.ReferenceIdeal.Read.val_main_v87 (F := Ideal) (x0 m c) (x1 m c) (x2 m c) (x3 m c) (x4 m c) (x5 m c) (x6 m c) (x7 m c)) (x8 m c) := by
    unfold Cert.ReferenceIdeal.Read.val_main_v88
    exact dotGeneral_plain_eq_mm (m := 1000000) (k := 64) (n := 1) none _ _
  have e91 : Cert.ReferenceIdeal.Read.val_main_v91 (F := Ideal) (x0 m c) (x1 m c) (x2 m c) (x3 m c) (x4 m c) (x5 m c) (x6 m c) (x7 m c) (x8 m c) (x9 m c)
      = plusScalar (m := 1000000) (n := 1) (Cert.ReferenceIdeal.Read.val_main_v88 (F := Ideal) (x0 m c) (x1 m c) (x2 m c) (x3 m c) (x4 m c) (x5 m c) (x6 m c) (x7 m c) (x8 m c)) (x9 m c (ix1 (0 : Fin 1))) := by
    funext j
    rw [Cert.ReferenceIdeal.Read.val_main_v91_apply, Cert.ReferenceIdeal.Read.val_main_v90_apply, Cert.ReferenceIdeal.Read.val_main_v89_apply]
    exact congrArg (fun i => _ + x9 m c i) (funext fun a => match a with | ⟨0, _⟩ => rfl)
  rw [e91, e88, e87]
  unfold Layer2.perceptron
  have hb1 : (fun h : Fin 64 => shapeCast S1x64 (x7 m c) shapeCasts_S64_S1x64 (ix2 (0 : Fin 1) h)) = fun h => x7 m c (ix1 h) :=
    funext fun h => shapeCast_row_apply _ _ h
  have hb2 : shapeCast S1x1 (x9 m c) shapeCasts_S1_S1x1 (ix2 (0 : Fin 1) (0 : Fin 1)) = x9 m c (ix1 (0 : Fin 1)) :=
    shapeCast_row_apply _ _ _
  rw [hb1, hb2]

/-! ## The result -/

/-- The result buffer at the return: the decoder's one column read as a vector, the reference's final reshape of the
    same array. -/
theorem result_exit (c : Dev nD) :
    W7 m ρ c (Proc.devRef .tc main_v83) = Cert.ReferenceIdeal.Read.val_main_v92 (F := Ideal) (x0 m c) (x1 m c) (x2 m c) (x3 m c) (x4 m c) (x5 m c) (x6 m c) (x7 m c) (x8 m c) (x9 m c) := by
  show StableHlo.after hostOps3 (W6 m ρ c) (Proc.devRef .tc main_v83) = _
  after_results_simp
  rw [out_exit]
  rfl

end Cert.KernelIdeal.Stages

end
-- ==== Proof.lean ====
/-
  The certificate of a two-layer graph convolution encoder with an edge decoder, kernel against reference.

  Both programs normalise the graph (self-loops, degrees, edge weights deg^(-1/2)[src] · deg^(-1/2)[dst]), apply
  conv(h) = scatter-add over destinations of weight · (h · W)[src], twice with a bias and a rectifier between, gather the
  result at both endpoints of every edge, and score each edge by a two-layer perceptron. The reference spells the three
  dense pieces as host dot_generals with broadcast biases and a maximum with zero; the kernel computes each of them in a
  pallas_call, block of rows by block of rows, with both operands narrowed to bf16 before each product, and the first
  bias and rectifier fused into the second convolution's product. Everything else is the same host operations on the
  same operands in both programs.

  Over the extended reals, where a narrowing is the identity and every product and sum is the exact one, the two programs
  compute the same function of the arguments with no algebraic law needed beyond "a product of matrices acts row by row":
  * Layer0 / Layer1 / Layer2: each dense region leaves the textbook layer of the whole arrays it finds;
  * KernelStages: boundary by boundary the kernel program's buffers are the reference's stages of the same arguments;
  * KernelRun: every weakly fair execution of the kernel program ends with its buffers at the last boundary's contents;
  * the reference's run and its stages are read off its own text.
  The precondition (finite inputs) is not used: no step cancels or distributes.

  The three frames are the generated ones (the reference's is its run with the result dropped); the idealization
  rewrote nothing, so `preserves` has nothing to state.
-/
import proofs.«120151_j10685878632451_1_alg».proof.Defs
import proofs.«120151_j10685878632451_1_alg».proof.Proof.Gen.Kernel
import proofs.«120151_j10685878632451_1_alg».proof.Proof.Gen.Kernel.Skeleton
import proofs.«120151_j10685878632451_1_alg».proof.Proof.Gen.Kernel.Launch
import proofs.«120151_j10685878632451_1_alg».proof.Proof.Gen.Kernel.Points
import proofs.«120151_j10685878632451_1_alg».proof.Proof.Gen.Kernel.Frame
import proofs.«120151_j10685878632451_1_alg».proof.Proof.Gen.KernelIdeal
import proofs.«120151_j10685878632451_1_alg».proof.Proof.Gen.KernelIdeal.Skeleton
import proofs.«120151_j10685878632451_1_alg».proof.Proof.Gen.KernelIdeal.Launch
import proofs.«120151_j10685878632451_1_alg».proof.Proof.Gen.KernelIdeal.Points
import proofs.«120151_j10685878632451_1_alg».proof.Proof.Gen.KernelIdeal.Frame
import proofs.«120151_j10685878632451_1_alg».proof.Proof.Gen.ReferenceIdeal
import proofs.«120151_j10685878632451_1_alg».proof.Proof.Gen.ReferenceIdeal.Run
import proofs.«120151_j10685878632451_1_alg».proof.Proof.Gen.ReferenceIdeal.Read
import proofs.«120151_j10685878632451_1_alg».proof.Proof.Gen.Pre_finite_inputs
import proofs.«120151_j10685878632451_1_alg».proof.Proof.KernelRun
import proofs.«120151_j10685878632451_1_alg».proof.Proof.KernelStages
import Idealize.ShloMosaic.Adequacy
import Idealize.ShloMosaic.Init

noncomputable section

namespace Cert.Proof

open Idealize.ShloMosaic Idealize.ShloMosaic.TcCoe Idealize.SL.Sem

/-- The kernel program as printed runs, its arguments unchanged. -/
theorem frame_kernel : Cert.frame_Kernel := fun m ρ _ => Cert.Kernel.Gen.frame m ρ

/-- The idealized kernel program runs, its arguments unchanged. -/
theorem frame_kernel_ideal : Cert.frame_KernelIdeal := fun m ρ _ => Cert.KernelIdeal.Gen.frame m ρ

/-- The idealized reference runs, its arguments unchanged: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs end with the edge scores at the reference's last
    stage of the arguments: the kernel program by its boundaries, the reference by its own run. -/
theorem algebraic : Cert.algebraic_KernelIdeal_ReferenceIdeal := by
  intro m ρ m' ρ' _ hagree
  refine ⟨fun c => Cert.ReferenceIdeal.Read.val_main_v92 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · refine (θ_run Cert.KernelIdeal.defs _ _).mono (fun r h c => ?_) (Cert.KernelIdeal.Whole.run_all (F := Ideal) m ρ)
    exact ⟨(h c _ (Cert.KernelIdeal.Gen.mem_uc Cert.KernelIdeal.main_v83 (by decide))).trans (Cert.KernelIdeal.Stages.result_exit m ρ c),
      (h c _ (Cert.KernelIdeal.Gen.mem_uc Cert.KernelIdeal.main_arg0 (by decide))).trans (Cert.KernelIdeal.Gen.W7_main_arg0 m ρ c),
      (h c _ (Cert.KernelIdeal.Gen.mem_uc Cert.KernelIdeal.main_arg1 (by decide))).trans (Cert.KernelIdeal.Gen.W7_main_arg1 m ρ c),
      (h c _ (Cert.KernelIdeal.Gen.mem_uc Cert.KernelIdeal.main_arg2 (by decide))).trans (Cert.KernelIdeal.Gen.W7_main_arg2 m ρ c),
      (h c _ (Cert.KernelIdeal.Gen.mem_uc Cert.KernelIdeal.main_arg3 (by decide))).trans (Cert.KernelIdeal.Gen.W7_main_arg3 m ρ c),
      (h c _ (Cert.KernelIdeal.Gen.mem_uc Cert.KernelIdeal.main_arg4 (by decide))).trans (Cert.KernelIdeal.Gen.W7_main_arg4 m ρ c),
      (h c _ (Cert.KernelIdeal.Gen.mem_uc Cert.KernelIdeal.main_arg5 (by decide))).trans (Cert.KernelIdeal.Gen.W7_main_arg5 m ρ c),
      (h c _ (Cert.KernelIdeal.Gen.mem_uc Cert.KernelIdeal.main_arg6 (by decide))).trans (Cert.KernelIdeal.Gen.W7_main_arg6 m ρ c),
      (h c _ (Cert.KernelIdeal.Gen.mem_uc Cert.KernelIdeal.main_arg7 (by decide))).trans (Cert.KernelIdeal.Gen.W7_main_arg7 m ρ c),
      (h c _ (Cert.KernelIdeal.Gen.mem_uc Cert.KernelIdeal.main_arg8 (by decide))).trans (Cert.KernelIdeal.Gen.W7_main_arg8 m ρ c),
      (h c _ (Cert.KernelIdeal.Gen.mem_uc Cert.KernelIdeal.main_arg9 (by decide))).trans (Cert.KernelIdeal.Gen.W7_main_arg9 m ρ c)⟩
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8, a9⟩ := hagree c
    rw [Cert.ReferenceIdeal.Read.val_main_v92_eq, a0, a1, a2, a3, a4, a5, a6, a7, a8, a9]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
